-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x2048x128 : Shape := ⟨3, ![128, 2048, 128]⟩
abbrev S2x128 : Shape := ⟨2, ![2, 128]⟩
abbrev S2 : Shape := ⟨1, ![2]⟩
abbrev S_ : Shape := ⟨0, ![]⟩

class Facts : Prop where
  bcast_S_S128x2048x128 : S_.BroadcastsInDim S128x2048x128 (![] : Fin 0 → Fin S128x2048x128.rank)
  reducesTo_S128x2048x128_S_d0_1_2 : S128x2048x128.ReducesTo [0, 1, 2] S_
  h_S_ : 0 < S_.numel
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_

variable [Facts]

def fn {F : FTy → Type} [FloatOps F] (main_arg0 : FVec F S128x2048x128 .f32) (main_arg1 : FVec F S2x128 .f32) (main_arg2 : FVec F S2 .f32) : IVec S_ 1 :=
  let main_v0 : FVec F S128x2048x128 .f32 := Host.absf main_arg0
  let main_cst : FVec F S_ .f32 := constant S_ .f32 0x7F800000#32
  let main_v1 : FVec F S128x2048x128 .f32 := broadcastInDim S128x2048x128 ![] bcast_S_S128x2048x128 main_cst
  let main_v2 : IVec S128x2048x128 1 := cmpf .olt main_v0 main_v1
  let main_c : IVec S_ 1 := constantI S_ 1 1#1
  let main_v3 : IVec S_ 1 := (fun x v => Host.reduce IntOp.andi x v reducesTo_S128x2048x128_S_d0_1_2 h_S_) main_v2 main_c
  let main_v4 : FVec F S2x128 .f32 := Host.absf main_arg1
  let main_cst_0 : FVec F S_ .f32 := constant S_ .f32 0x7F800000#32
  let main_v5 : FVec F S2x128 .f32 := broadcastInDim S2x128 ![] bcast_S_S2x128 main_cst_0
  let main_v6 : IVec S2x128 1 := cmpf .olt main_v4 main_v5
  let main_c_1 : IVec S_ 1 := constantI S_ 1 1#1
  let main_v7 : IVec S_ 1 := (fun x v => Host.reduce IntOp.andi x v reducesTo_S2x128_S_d0_1 h_S_) main_v6 main_c_1
  let main_v8 : IVec S_ 1 := andi main_v3 main_v7
  let main_v9 : FVec F S2 .f32 := Host.absf main_arg2
  let main_cst_2 : FVec F S_ .f32 := constant S_ .f32 0x7F800000#32
  let main_v10 : FVec F S2 .f32 := broadcastInDim S2 ![] bcast_S_S2 main_cst_2
  let main_v11 : IVec S2 1 := cmpf .olt main_v9 main_v10
  let main_c_3 : IVec S_ 1 := constantI S_ 1 1#1
  let main_v12 : IVec S_ 1 := (fun x v => Host.reduce IntOp.andi x v reducesTo_S2_S_d0 h_S_) main_v11 main_c_3
  let main_v13 : IVec S_ 1 := andi main_v8 main_v12
  main_v13
-- ==== Kernel.lean ====
abbrev S128x2048x128 : Shape := ⟨3, ![128, 2048, 128]⟩
abbrev S2x128 : Shape := ⟨2, ![2, 128]⟩
abbrev S2 : Shape := ⟨1, ![2]⟩
abbrev S1x128 : Shape := ⟨2, ![1, 128]⟩
abbrev S128 : Shape := ⟨1, ![128]⟩
abbrev S1 : Shape := ⟨1, ![1]⟩
abbrev S_ : Shape := ⟨0, ![]⟩
abbrev S1x2 : Shape := ⟨2, ![1, 2]⟩
abbrev S128x2048x2 : Shape := ⟨3, ![128, 2048, 2]⟩
abbrev S4x2048x128 : Shape := ⟨3, ![4, 2048, 128]⟩
abbrev S4x2048x2 : Shape := ⟨3, ![4, 2048, 2]⟩
abbrev S8192x128 : Shape := ⟨2, ![8192, 128]⟩
abbrev S8192x2 : Shape := ⟨2, ![8192, 2]⟩

abbrev nBuf : Space → Nat
  | .hbm => 23
  | .vmem => 6
  | .smem => 0
  | _ => 0

abbrev bufTy : (tb : Table) → Fin (tcTables nBuf tb) → BufTy
  | .hbm, ⟨0, _⟩ => ⟨S128x2048x128, .f32⟩
  | .hbm, ⟨1, _⟩ => ⟨S2x128, .f32⟩
  | .hbm, ⟨2, _⟩ => ⟨S2, .f32⟩
  | .hbm, ⟨3, _⟩ => ⟨S1x128, .f32⟩
  | .hbm, ⟨4, _⟩ => ⟨S128, .f32⟩
  | .hbm, ⟨5, _⟩ => ⟨S1x128, .f32⟩
  | .hbm, ⟨6, _⟩ => ⟨S128, .f32⟩
  | .hbm, ⟨7, _⟩ => ⟨S128, .f32⟩
  | .hbm, ⟨8, _⟩ => ⟨S1, .f32⟩
  | .hbm, ⟨9, _⟩ => ⟨S_, .f32⟩
  | .hbm, ⟨10, _⟩ => ⟨S1, .f32⟩
  | .hbm, ⟨11, _⟩ => ⟨S_, .f32⟩
  | .hbm, ⟨12, _⟩ => ⟨S_, .f32⟩
  | .hbm, ⟨13, _⟩ => ⟨S128, .f32⟩
  | .hbm, ⟨14, _⟩ => ⟨S1x128, .f32⟩
  | .hbm, ⟨15, _⟩ => ⟨S1x128, .f32⟩
  | .hbm, ⟨16, _⟩ => ⟨S2x128, .f32⟩
  | .hbm, ⟨17, _⟩ => ⟨S_, .f32⟩
  | .hbm, ⟨18, _⟩ => ⟨S1, .f32⟩
  | .hbm, ⟨19, _⟩ => ⟨S1, .f32⟩
  | .hbm, ⟨20, _⟩ => ⟨S2, .f32⟩
  | .hbm, ⟨21, _⟩ => ⟨S1x2, .f32⟩
  | .hbm, ⟨22, _⟩ => ⟨S128x2048x2, .f32⟩
  | .local _ .vmem, ⟨0, _⟩ => ⟨S4x2048x128, .f32⟩
  | .local _ .vmem, ⟨1, _⟩ => ⟨S4x2048x128, .f32⟩
  | .local _ .vmem, ⟨2, _⟩ => ⟨S2x128, .f32⟩
  | .local _ .vmem, ⟨3, _⟩ => ⟨S1x2, .f32⟩
  | .local _ .vmem, ⟨4, _⟩ => ⟨S4x2048x2, .f32⟩
  | .local _ .vmem, ⟨5, _⟩ => ⟨S4x2048x2, .f32⟩
  | _, _ => ⟨S128x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x2048x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x128_S1x128_1_0 : S2x128.Slices ![1, 0] S1x128
  shapeCasts_S1x128_S128 : S1x128.ShapeCasts S128
  slices_S2x128_S1x128_0_0 : S2x128.Slices ![0, 0] S1x128
  slices_S2_S1_1 : S2.Slices ![1] S1
  shapeCasts_S1_S_ : S1.ShapeCasts S_
  slices_S2_S1_0 : S2.Slices ![0] S1
  bcast_S128_S1x128_1 : S128.BroadcastsInDim S1x128 (![1] : Fin 1 → Fin S1x128.rank)
  concatenates_S1x128_S1x128_S2x128_d0 : Shape.Concatenates [S1x128, S1x128] S2x128 0
  bcast_S_S1 : S_.BroadcastsInDim S1 (![] : Fin 0 → Fin S1.rank)
  concatenates_S1_S1_S2_d0 : Shape.Concatenates [S1, S1] S2 0
  shapeCasts_S2_S1x2 : S2.ShapeCasts S1x2
  inb_S4x2048x128_S4x2048x128_0_0_0 : ∀ a, (![0, 0, 0] : Fin 3 → Nat) a + S4x2048x128.size a ≤ S4x2048x128.size a
  h_S4x2048x128 : 0 < S4x2048x128.numel
  shapeCasts_S4x2048x128_S8192x128 : S4x2048x128.ShapeCasts S8192x128
  inb_S2x128_S2x128_0_0 : ∀ a, (![0, 0] : Fin 2 → Nat) a + S2x128.size a ≤ S2x128.size a
  h_S2x128 : 0 < S2x128.numel
  shapeCasts_S2x128_S2x128 : S2x128.ShapeCasts S2x128
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S8192x2 : S1x2.Broadcasts S8192x2
  shapeCasts_S8192x2_S4x2048x2 : S8192x2.ShapeCasts S4x2048x2
  inb_S4x2048x2_S4x2048x2_0_0_0 : ∀ a, (![0, 0, 0] : Fin 3 → Nat) a + S4x2048x2.size a ≤ S4x2048x2.size a
  h_S4x2048x2 : 0 < S4x2048x2.numel
  dot_S8192x128_S2x128_S8192x2_1_1_0_0_n_n_wf : DotDims.WF S8192x128 S2x128 S8192x2 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x2048x128.size a ≤ S128x2048x128.size a
  hwx0_0 : ∀ i : grid0.Coords, EltTy.bits .f32 = 32 ∨ (Rect.block (s := S128x2048x128) S4x2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x128.size a ≤ S2x128.size a
  hwx0_1 : ∀ i : grid0.Coords, EltTy.bits .f32 = 32 ∨ (Rect.block (s := S2x128) S2x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2.size a ≤ S1x2.size a
  hwx0_2 : ∀ i : grid0.Coords, EltTy.bits .f32 = 32 ∨ (Rect.block (s := S1x2) S1x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x2048x2.size a ≤ S128x2048x2.size a
  hwx0_3 : ∀ i : grid0.Coords, EltTy.bits .f32 = 32 ∨ (Rect.block (s := S128x2048x2) S4x2048x2.size (cc0_transform_3 i) (hinb0_3 i)).WholeWords (EltTy.packing .f32)

variable [Facts₀]

def dot_S8192x128_S2x128_S8192x2_1_1_0_0_n_n : DotDims S8192x128 S2x128 S8192x2 where
  lhsContracting := [1]
  rhsContracting := [1]
  lhsNonContracting := [0]
  rhsNonContracting := [0]
  lhsBatch := []
  rhsBatch := []
  wf := dot_S8192x128_S2x128_S8192x2_1_1_0_0_n_n_wf

abbrev win0_0 : Pipeline.Window sig grid0 :=
  Pipeline.Window.ofSpec (Memref.whole main_arg0) S4x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S4x2048x2.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S128x2048x128 : Shape := ⟨3, ![128, 2048, 128]⟩
abbrev S2x128 : Shape := ⟨2, ![2, 128]⟩
abbrev S2 : Shape := ⟨1, ![2]⟩
abbrev S128x2048x2 : Shape := ⟨3, ![128, 2048, 2]⟩
abbrev S1x1x2 : Shape := ⟨3, ![1, 1, 2]⟩
abbrev S_ : Shape := ⟨0, ![]⟩
abbrev S128x2048 : Shape := ⟨2, ![128, 2048]⟩
abbrev S128x2048x1 : Shape := ⟨3, ![128, 2048, 1]⟩

abbrev nBuf : Space → Nat
  | .hbm => 21
  | .vmem => 0
  | .smem => 0
  | _ => 0

abbrev bufTy : (tb : Table) → Fin (tcTables nBuf tb) → BufTy
  | .hbm, ⟨0, _⟩ => ⟨S128x2048x128, .f32⟩
  | .hbm, ⟨1, _⟩ => ⟨S2x128, .f32⟩
  | .hbm, ⟨2, _⟩ => ⟨S2, .f32⟩
  | .hbm, ⟨3, _⟩ => ⟨S128x2048x2, .f32⟩
  | .hbm, ⟨4, _⟩ => ⟨S1x1x2, .f32⟩
  | .hbm, ⟨5, _⟩ => ⟨S128x2048x2, .f32⟩
  | .hbm, ⟨6, _⟩ => ⟨S128x2048x2, .f32⟩
  | .hbm, ⟨7, _⟩ => ⟨S_, .f32⟩
  | .hbm, ⟨8, _⟩ => ⟨S128x2048, .f32⟩
  | .hbm, ⟨9, _⟩ => ⟨S_, .f32⟩
  | .hbm, ⟨10, _⟩ => ⟨S128x2048, .f32⟩
  | .hbm, ⟨11, _⟩ => ⟨S128x2048, .f32⟩
  | .hbm, ⟨12, _⟩ => ⟨S128x2048x1, .f32⟩
  | .hbm, ⟨13, _⟩ => ⟨S128x2048x2, .f32⟩
  | .hbm, ⟨14, _⟩ => ⟨S128x2048x2, .f32⟩
  | .hbm, ⟨15, _⟩ => ⟨S128x2048x2, .f32⟩
  | .hbm, ⟨16, _⟩ => ⟨S_, .f32⟩
  | .hbm, ⟨17, _⟩ => ⟨S128x2048, .f32⟩
  | .hbm, ⟨18, _⟩ => ⟨S128x2048x1, .f32⟩
  | .hbm, ⟨19, _⟩ => ⟨S128x2048x2, .f32⟩
  | .hbm, ⟨20, _⟩ => ⟨S128x2048x2, .f32⟩
  | _, _ => ⟨S128x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  bcast_S2_S1x1x2_2 : S2.BroadcastsInDim S1x1x2 (![2] : Fin 1 → Fin S1x1x2.rank)
  bcast_S1x1x2_S128x2048x2_0_1_2 : S1x1x2.BroadcastsInDim S128x2048x2 (![0, 1, 2] : Fin 3 → Fin S128x2048x2.rank)
  reducesTo_S128x2048x2_S128x2048_d2 : S128x2048x2.ReducesTo [2] S128x2048
  h_S_ : 0 < S_.numel
  bcast_S_S128x2048 : S_.BroadcastsInDim S128x2048 (![] : Fin 0 → Fin S128x2048.rank)
  bcast_S128x2048_S128x2048x1_0_1 : S128x2048.BroadcastsInDim S128x2048x1 (![0, 1] : Fin 2 → Fin S128x2048x1.rank)
  bcast_S128x2048x1_S128x2048x2_0_1_2 : S128x2048x1.BroadcastsInDim S128x2048x2 (![0, 1, 2] : Fin 3 → Fin S128x2048x2.rank)
  dot_S128x2048x128_S2x128_S128x2048x2_2_1_01_0_n_n_wf : DotDims.WF S128x2048x128 S2x128 S128x2048x2 [2] [1] [0, 1] [0] [] []

variable [Facts₀]

def dot_S128x2048x128_S2x128_S128x2048x2_2_1_01_0_n_n : DotDims S128x2048x128 S2x128 S128x2048x2 where
  lhsContracting := [2]
  rhsContracting := [1]
  lhsNonContracting := [0, 1]
  rhsNonContracting := [0]
  lhsBatch := []
  rhsBatch := []
  wf := dot_S128x2048x128_S2x128_S128x2048x2_2_1_01_0_n_n_wf

class Facts : Prop extends Facts₀ where

variable [Facts]
-- ==== Proof.LibDotFormats.lean ====
/-
  Matrix products with ONE contracted axis, read at an index, for operands of any float formats.

  Two arrangements of the dimension numbers of a rank-2 product without batch axes:
  * rows by columns: an `A × K` left operand against a `K × B` right operand, the left operand's second axis
    contracted against the right operand's first; entry `(p, q)` is `∑ k, f (p, k) · g (k, q)`;
  * rows by rows: an `A × K` left operand against a `B × K` right operand, the second axis of both contracted
    (the right operand enters transposed); entry `(p, q)` is `∑ k, f (p, k) · g (q, k)`.
  In both the contraction index has the one coordinate `k : Fin K`. Any record with those dimension numbers is
  the library's `DotDims.plain`, respectively `DotDims.transposedRhs`, for which the operand indices compute.
  The operands' element formats are arbitrary (at the ideal values every format is the extended reals), so the
  statements serve a product of half-precision operands accumulated in single precision as well.
-/
import Idealize.ShloMosaic.PureOps.Ideal
import Idealize.ShloMosaic.PureOps.Ideal.Laws
import Idealize.ShloMosaic.Lib.ValueIdx

noncomputable section

namespace Cert.LibDotFormats

open Idealize.ShloMosaic Idealize.ShloMosaic.ValueIdx
open scoped BigOperators

variable {A K B : Nat}

/-! ## Rows by columns: `[A, K] × [K, B]`, dimension numbers `[1] × [0]` -/

/-- Dimension numbers `[1] × [0]`, free axes `[0]` and `[1]`, no batch: the record is `DotDims.plain`. -/
theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

theorem plain_rank : (DotDims.plain A K B).contr.rank = 1 := rfl
theorem plain_size : (DotDims.plain A K B).contr.size ⟨0, by rw [plain_rank]; exact Nat.one_pos⟩ = K := rfl

theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

/-- The sum over the contraction index is the sum over `k : Fin K` of `f (p, k) · g (k, q)`. -/
theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

/-- A product into the zero accumulator, at `(p, q)`: `∑ k, lhs (p, k) · rhs (k, q)`. -/
theorem matmul_cols_zero_apply {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

/-! ## Rows by rows: `[A, K] × [B, K]`, dimension numbers `[1] × [1]` -/

/-- Dimension numbers `[1] × [1]`, free axes `[0]` and `[0]`, no batch: the record is `DotDims.transposedRhs`. -/
theorem eq_transposedRhs (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = []) : d = DotDims.transposedRhs A K B := by
  cases d
  simp only at hlc hrc hln hrn hlb hrb
  subst hlc hrc hln hrn hlb hrb
  rfl

theorem rows_rank : (DotDims.transposedRhs A K B).contr.rank = 1 := rfl
theorem rows_size : (DotDims.transposedRhs A K B).contr.size ⟨0, by rw [rows_rank]; exact Nat.one_pos⟩ = K := rfl

theorem rows_lhs (p : Fin A) (q : Fin B) (k : Fin K) :
    (DotDims.transposedRhs A K B).lhsIdx (ix2 p q) ((contrEquiv1 (DotDims.transposedRhs A K B) K rows_rank rows_size).symm k) = ix2 p k := by
  funext a
  apply Fin.ext
  match a with
  | ⟨0, _⟩ => rfl
  | ⟨1, _⟩ => rfl

theorem rows_rhs (p : Fin A) (q : Fin B) (k : Fin K) :
    (DotDims.transposedRhs A K B).rhsIdx (ix2 p q) ((contrEquiv1 (DotDims.transposedRhs A K B) K rows_rank rows_size).symm k) = ix2 q k := by
  funext a
  apply Fin.ext
  match a with
  | ⟨0, _⟩ => rfl
  | ⟨1, _⟩ => rfl

/-- The sum over the contraction index is the sum over `k : Fin K` of `f (p, k) · g (q, k)`. -/
theorem rows_sum (f : (⟨2, ![A, K]⟩ : Shape).Idx → EReal) (g : (⟨2, ![B, K]⟩ : Shape).Idx → EReal) (p : Fin A) (q : Fin B) :
    ∑ k : (DotDims.transposedRhs A K B).contr.Idx,
        f ((DotDims.transposedRhs A K B).lhsIdx (ix2 p q) k) * g ((DotDims.transposedRhs A K B).rhsIdx (ix2 p q) k)
      = ∑ k : Fin K, f (ix2 p k) * g (ix2 q k) := by
  rw [← Equiv.sum_comp (contrEquiv1 (DotDims.transposedRhs A K B) K rows_rank rows_size).symm]
  refine Finset.sum_congr rfl fun k _ => ?_
  rw [rows_lhs, rows_rhs]

/-- A product into the zero accumulator with the right operand contracted on its last axis, at `(p, q)`:
    `∑ k, lhs (p, k) · rhs (q, k)`. -/
theorem matmul_rows_zero_apply {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![A, K]⟩ φ₁) (rhs : FVec Ideal ⟨2, ![B, K]⟩ φ₂)
    (p : Fin A) (q : Fin B) :
    FloatOps.matmul d prec lhs rhs (constant ⟨2, ![A, B]⟩ .f32 0x00000000#32) (ix2 p q) = ∑ k : Fin K, lhs (ix2 p k) * rhs (ix2 q k) := by
  rw [eq_transposedRhs d hlc hrc hln hrn hlb hrb, Ideal.matmul_constant_zero_apply]
  exact rows_sum lhs rhs p q

end Cert.LibDotFormats

end
-- ==== Proof.BodyAt.lean ====
/-
  The kernel body's result at an index.

  At a grid point the body holds a block x of shape [4, 2048, 128], the two weight rows wp of shape [2, 128] and
  the two offsets cp of shape [1, 2]. It flattens the block to 8192 rows, multiplies by wp contracted over the
  128 columns of both, adds cp along the rows, and applies 1 / (1 + exp (0 - u)) entry by entry, then restores the
  [4, 2048, 2] layout. Entry (a, n, o) of the result therefore depends on row (a, n) of x, row o of wp and entry
  (0, o) of cp only: it is 1 / (1 + exp (0 - (sum over k of x (a, n, k) * wp (o, k) + cp (0, o)))).
-/
import proofs.«165602_g39943195853502_cont_8to1_b_465_8_alg».proof.Proof.Gen.KernelIdeal.Skeleton
import proofs.«165602_g39943195853502_cont_8to1_b_465_8_alg».proof.Proof.LibDotFormats
import Idealize.ShloMosaic.Lib.ValueIdx
import Idealize.ShloMosaic.Lib.Pipeline.Value
import Idealize.ShloMosaic.PureOps.Ideal.Laws

noncomputable section

namespace Cert.KernelIdeal.BodyAt

open Cert.KernelIdeal Cert.KernelIdeal.Gen Idealize.ShloMosaic Idealize.ShloMosaic.ValueIdx
open scoped BigOperators

/-- Row (a, n) of the block, flattened: a * 2048 + n. -/
def flatRow (a : Fin 4) (n : Fin 2048) : Fin 8192 := ⟨a.val * 2048 + n.val, by have := a.isLt; have := n.isLt; omega⟩

/-- The sigmoid of a logit, as the body spells it over the extended reals. -/
def sig (u : EReal) : EReal :=
  Ideal.div (Ideal.ofBits .f32 0x3F800000#32)
    (Ideal.ofBits .f32 0x3F800000#32 + Ideal.exp (Ideal.ofBits .f32 0x00000000#32 - u))

/-- The flattened block at (row (a, n), k) is the block at (a, n, k). -/
theorem flat_apply (x0 : Vec Ideal S4x2048x128 .f32) (a : Fin 4) (n : Fin 2048) (k : Fin 128) :
    shapeCast S8192x128 x0 shapeCasts_S4x2048x128_S8192x128 (ix2 (flatRow a n) k) = x0 (ix3 a n k) :=
  shapeCast_apply x0 shapeCasts_S4x2048x128_S8192x128 _ _ (by
    rw [Shape.rowMajor_val_three, Shape.rowMajor_val_two]
    show (a.val * 2048 + n.val) * 128 + k.val = (a.val * 2048 + n.val) * 128 + k.val
    rfl)

/-- The offsets spread down the 8192 rows read (0, o) at (p, o). -/
theorem spread_apply (x2 : Vec Ideal S1x2 .f32) (p : Fin 8192) (o : Fin 2) :
    broadcastTo S8192x2 x2 broadcasts_S1x2_S8192x2 (ix2 p o) = x2 (ix2 (0 : Fin 1) o) :=
  broadcastTo_apply x2 broadcasts_S1x2_S8192x2 _ _ fun b => match b with
    | ⟨0, _⟩ => by show (0 : Nat) = if (1 : Nat) = 1 then 0 else p.val; rfl
    | ⟨1, _⟩ => by show o.val = if (2 : Nat) = 1 then 0 else o.val; rfl

/-- The product of the flattened block with the weight rows at (row (a, n), o). -/
theorem product_apply (x0 : Vec Ideal S4x2048x128 .f32) (x1 : Vec Ideal S2x128 .f32) (a : Fin 4) (n : Fin 2048) (o : Fin 2) :
    matmul (F := Ideal) dot_S8192x128_S2x128_S8192x2_1_1_0_0_n_n none
        (shapeCast S8192x128 x0 shapeCasts_S4x2048x128_S8192x128 : FVec Ideal S8192x128 .f32)
        (shapeCast S2x128 x1 shapeCasts_S2x128_S2x128 : FVec Ideal S2x128 .f32)
        (constant S8192x2 .f32 0x00000000#32) (ix2 (flatRow a n) o)
      = ∑ k : Fin 128, x0 (ix3 a n k) * x1 (ix2 o k) := by
  refine (Cert.LibDotFormats.matmul_rows_zero_apply dot_S8192x128_S2x128_S8192x2_1_1_0_0_n_n rfl rfl rfl rfl rfl rfl none _ _ (flatRow a n) o).trans ?_
  refine Finset.sum_congr rfl fun k _ => ?_
  rw [flat_apply, shapeCast_self]

/-- The body's result at (a, n, o). -/
theorem result_apply (x0 : Vec Ideal S4x2048x128 .f32) (x1 : Vec Ideal S2x128 .f32) (x2 : Vec Ideal S1x2 .f32)
    (a : Fin 4) (n : Fin 2048) (o : Fin 2) :
    k0_pay1 (F := Ideal) x0 x1 x2 (ix3 a n o)
      = sig ((∑ k : Fin 128, x0 (ix3 a n k) * x1 (ix2 o k)) + x2 (ix2 (0 : Fin 1) o)) := by
  unfold k0_pay1
  refine (shapeCast_apply _ shapeCasts_S8192x2_S4x2048x2 (ix3 a n o) (ix2 (flatRow a n) o) (by
    rw [Shape.rowMajor_val_three, Shape.rowMajor_val_two]
    show (a.val * 2048 + n.val) * 2 + o.val = (a.val * 2048 + n.val) * 2 + o.val
    rfl)).trans ?_
  unfold sig
  refine congrArg (fun z => Ideal.div (Ideal.ofBits .f32 0x3F800000#32)
    (Ideal.ofBits .f32 0x3F800000#32 + Ideal.exp (Ideal.ofBits .f32 0x00000000#32 - z))) ?_
  exact congrArg₂ (· + ·) (product_apply x0 x1 a n o) (by
    rw [shapeCast_self]; exact spread_apply x2 (flatRow a n) o)

end Cert.KernelIdeal.BodyAt

end
-- ==== Proof.Whole.lean ====
/-
  The kernel's output array after the run, as one function of the arrays the call is given.

  Grid point t holds rows 4t .. 4t+3 of the input's leading axis and writes rows 4t .. 4t+3 of the output; the
  weight rows and the offsets are the same whole arrays at every point. The 32 output blocks are disjoint and
  cover the output, so entry (b, n, o) of the final array is the sigmoid of
  sum over k of X (b, n, k) * wp (o, k) + cp (0, o), whatever point wrote it.
-/
import proofs.«165602_g39943195853502_cont_8to1_b_465_8_alg».proof.Proof.Gen.KernelIdeal.Value
import proofs.«165602_g39943195853502_cont_8to1_b_465_8_alg».proof.Proof.BodyAt
import Idealize.ShloMosaic.Lib.ValueIdx
import Idealize.ShloMosaic.Lib.Pipeline.Value

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-- The output array as a function of the input array, the weight rows and the offsets. -/
def G (X : FVec Ideal S128x2048x128 .f32) (wp : FVec Ideal S2x128 .f32) (cp : FVec Ideal S1x2 .f32) :
    FVec Ideal S128x2048x2 .f32 :=
  fun i => BodyAt.sig ((∑ k : Fin 128, X (ix3 (i 0) (i 1) k) * wp (ix2 (i 2) k)) + cp (ix2 (0 : Fin 1) (i 2)))

/-- The body's result at block index j is `G` at array index i, when the block's row (j 0, j 1) is the array's row
    (i 0, i 1), the last coordinates agree, and the other two operands are the whole arrays. -/
theorem point_eq (x0 : Vec Ideal S4x2048x128 .f32) (x1 : Vec Ideal S2x128 .f32) (x2 : Vec Ideal S1x2 .f32)
    (X : FVec Ideal S128x2048x128 .f32) (wp : FVec Ideal S2x128 .f32) (cp : FVec Ideal S1x2 .f32)
    (i : S128x2048x2.Idx) (j : S4x2048x2.Idx)
    (h0 : ∀ k : Fin 128, x0 (ix3 (j 0) (j 1) k) = X (ix3 (i 0) (i 1) k))
    (h1 : ∀ y, x1 y = wp y) (h2 : ∀ y, x2 y = cp y) (hi : i 2 = j 2) :
    k0_pay1 (F := Ideal) x0 x1 x2 j = G X wp cp i := by
  refine ((congrArg (k0_pay1 (F := Ideal) x0 x1 x2) (eq_ix3 j)).trans (BodyAt.result_apply x0 x1 x2 (j 0) (j 1) (j 2))).trans ?_
  unfold G
  rw [hi]
  exact congrArg BodyAt.sig (congrArg₂ (· + ·) (Finset.sum_congr rfl fun k _ => by rw [h0 k, h1]) (h2 _))

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the input and output blocks move together along the leading axis and sit at
    block 0 on the other axes; the weight rows and the offsets stay at block (0, 0). -/
theorem idx_facts : ∀ t : Fin cfg0.N,
    win0_0.index t (0 : Fin 3) = win0_3.index t (0 : Fin 3)
    ∧ win0_0.index t (1 : Fin 3) = 0 ∧ win0_0.index t (2 : Fin 3) = 0
    ∧ win0_3.index t (1 : Fin 3) = 0 ∧ win0_3.index t (2 : Fin 3) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- Every block of four leading rows of the output is some point's. -/
theorem idx_onto : ∀ q : Fin 32, ∃ t : Fin cfg0.N, win0_3.index t = ![q.val, 0, 0] :=
  (by decide +kernel : ∀ q : Fin 32, ∃ t : Fin grid0.N, win0_3.index t = ![q.val, 0, 0])

/-- What point t writes back is block t of `G` of the arrays the call is given. -/
theorem flushed_eq (c : Dev nD) (t : Fin cfg0.N) :
    (dats m 0 c).flushed 3 t
      = ((cfg0.win 3).blk t).view.read (Elt Ideal) (G (V m c main_arg0) (V m c main_v13) (V m c main_v18)) := by
  rw [Value.flushed3]
  unfold out0_3
  rw [View.canon_unit_zero hz3]
  simp only [View.ld_unit_zero (S := S4x2048x128) hz3, View.ld_unit_zero (S := S2x128) hz2, View.ld_unit_zero (S := S1x2) hz2]
  obtain ⟨e0, e1, e2, e3, e4, e5, e6, e7, e8⟩ := idx_facts t
  funext j
  show k0_pay1 (F := Ideal) (iblk m c 0 t) (iblk m c 1 t) (iblk m c 2 t) j
    = G (V m c main_arg0) (V m c main_v13) (V m c main_v18) (((cfg0.win 3).blk t).view.emb j)
  refine point_eq (iblk m c 0 t) (iblk m c 1 t) (iblk m c 2 t) (V m c main_arg0) (V m c main_v13) (V m c main_v18)
    (((cfg0.win 3).blk t).view.emb j) j ?_ ?_ ?_ ?_
  · intro k
    show V m c main_arg0 (((cfg0.win 0).blk t).view.emb (ix3 (j 0) (j 1) k)) = V m c main_arg0 _
    refine congrArg (V m c main_arg0) (funext fun a => Fin.ext ?_)
    match a with
    | ⟨0, _⟩ => show win0_0.index t (0 : Fin 3) * 4 + 1 * (j 0).val = win0_3.index t (0 : Fin 3) * 4 + 1 * (j 0).val; omega
    | ⟨1, _⟩ => show win0_0.index t (1 : Fin 3) * 2048 + 1 * (j 1).val = win0_3.index t (1 : Fin 3) * 2048 + 1 * (j 1).val; omega
    | ⟨2, _⟩ => show win0_0.index t (2 : Fin 3) * 128 + 1 * k.val = k.val; omega
  · intro y
    show V m c main_v13 (((cfg0.win 1).blk t).view.emb y) = V m c main_v13 y
    refine congrArg (V m c main_v13) (funext fun a => Fin.ext ?_)
    match a with
    | ⟨0, _⟩ => show win0_1.index t (0 : Fin 2) * 2 + 1 * (y 0).val = (y 0).val; omega
    | ⟨1, _⟩ => show win0_1.index t (1 : Fin 2) * 128 + 1 * (y 1).val = (y 1).val; omega
  · intro y
    show V m c main_v18 (((cfg0.win 2).blk t).view.emb y) = V m c main_v18 y
    refine congrArg (V m c main_v18) (funext fun a => Fin.ext ?_)
    match a with
    | ⟨0, _⟩ => show win0_2.index t (0 : Fin 2) * 1 + 1 * (y 0).val = (y 0).val; omega
    | ⟨1, _⟩ => show win0_2.index t (1 : Fin 2) * 2 + 1 * (y 1).val = (y 1).val; omega
  · apply Fin.ext
    show win0_3.index t (2 : Fin 3) * 2 + 1 * (j 2).val = (j 2).val
    omega

/-- An index of the output is in point t's block iff each coordinate is in the block's range on its axis. -/
theorem mem_blk (t : Fin cfg0.N) (i : S128x2048x2.Idx) :
    i ∈ ((cfg0.win 3).blk t).view.set ↔ ∀ a : Fin 3, win0_3.index t a * S4x2048x2.size a ≤ (i a).val ∧ (i a).val < win0_3.index t a * S4x2048x2.size a + S4x2048x2.size a := by
  show i ∈ ((View.whole main_v19).slice (win0_3.rect t)).set ↔ _
  rw [View.set_slice_whole, Rect.mem_set_unit]
  exact Iff.rfl

/-- Every index of the output is in the block of the point that holds its leading row. -/
theorem cover (i : S128x2048x2.Idx) :
    ∃ t : Fin cfg0.N, (cfg0.win 3).flush t = true ∧ i ∈ ((cfg0.win 3).blk t).view.set := by
  have hi0 : (i 0).val < 128 := (i 0).isLt
  have hi1 : (i 1).val < 2048 := (i 1).isLt
  have hi2 : (i 2).val < 2 := (i 2).isLt
  obtain ⟨t, ht⟩ := idx_onto ⟨(i 0).val / 4, by omega⟩
  have q0 : win0_3.index t (0 : Fin 3) = (i 0).val / 4 := congrFun ht 0
  have q1 : win0_3.index t (1 : Fin 3) = 0 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 4 ≤ (i 0).val ∧ (i 0).val < win0_3.index t (0 : Fin 3) * 4 + 4; omega
  | ⟨1, _⟩ => show win0_3.index t (1 : Fin 3) * 2048 ≤ (i 1).val ∧ (i 1).val < win0_3.index t (1 : Fin 3) * 2048 + 2048; omega
  | ⟨2, _⟩ => show win0_3.index t (2 : Fin 3) * 2 ≤ (i 2).val ∧ (i 2).val < win0_3.index t (2 : Fin 3) * 2 + 2; omega

/-- The output array after the run. -/
theorem final (c : Dev nD) :
    (dats m 0 c).arrAt 3 cfg0.N = G (V m c main_arg0) (V m c main_v13) (V m c main_v18) :=
  (dats m 0 c).arrAt_eq_of_cover 3 (G (V m c main_arg0) (V m c main_v13) (V m c main_v18))
    (fun t _ => flushed_eq m c t) cover

end Cert.KernelIdeal.Whole

end
-- ==== Proof.Weights.lean ====
/-
  The two arrays the host builds for the kernel before the call, read back.

  From the weights W of shape [2, 128] the host forms the row difference d = W[1, :] - W[0, :] and stacks -d over d
  into a [2, 128] array; from the offsets b of shape [2] it forms c = b[1] - b[0] and lays -c, c out as a [1, 2]
  array. Read at an index: row 0 of the first array is -(W (1, k) - W (0, k)), row 1 is W (1, k) - W (0, k); entry
  (0, 0) of the second is -(b 1 - b 0), entry (0, 1) is b 1 - b 0.
-/
import proofs.«165602_g39943195853502_cont_8to1_b_465_8_alg».proof.Proof.Gen.KernelIdeal.Frame
import Idealize.ShloMosaic.Lib.ValueIdx
import Idealize.ShloMosaic.Lib.Pipeline.Value
import Idealize.ShloMosaic.Lib.StableHlo.Run

noncomputable section

namespace Cert.KernelIdeal.Weights

open Cert.KernelIdeal Cert.KernelIdeal.Gen Idealize.ShloMosaic Idealize.ShloMosaic.TcCoe Idealize.SL.Sem
open Idealize.ShloMosaic.StableHlo Idealize.ShloMosaic.ValueIdx

/-- The row difference W[1, :] - W[0, :]. -/
def rowDiff (W : FVec Ideal S2x128 .f32) : FVec Ideal S128 .f32 :=
  subf (shapeCast S128 (extractStridedSlice S1x128 ![1, 0] W slices_S2x128_S1x128_1_0) shapeCasts_S1x128_S128)
    (shapeCast S128 (extractStridedSlice S1x128 ![0, 0] W slices_S2x128_S1x128_0_0) shapeCasts_S1x128_S128)

/-- The negated row difference stacked over the row difference. -/
def rowPair (W : FVec Ideal S2x128 .f32) : FVec Ideal S2x128 .f32 :=
  concatenate S2x128 0 [⟨S1x128, broadcastInDim S1x128 ![1] bcast_S128_S1x128_1 (Host.negf (rowDiff W))⟩,
    ⟨S1x128, broadcastInDim S1x128 ![1] bcast_S128_S1x128_1 (rowDiff W)⟩] concatenates_S1x128_S1x128_S2x128_d0

/-- The offset difference b[1] - b[0]. -/
def offDiff (b : FVec Ideal S2 .f32) : FVec Ideal S_ .f32 :=
  subf (shapeCast S_ (extractStridedSlice S1 ![1] b slices_S2_S1_1) shapeCasts_S1_S_)
    (shapeCast S_ (extractStridedSlice S1 ![0] b slices_S2_S1_0) shapeCasts_S1_S_)

/-- The negated offset difference beside the offset difference, as one row. -/
def offPair (b : FVec Ideal S2 .f32) : FVec Ideal S1x2 .f32 :=
  shapeCast S1x2 (concatenate S2 0 [⟨S1, broadcastInDim S1 ![] bcast_S_S1 (Host.negf (offDiff b))⟩,
    ⟨S1, broadcastInDim S1 ![] bcast_S_S1 (offDiff b)⟩] concatenates_S1_S1_S2_d0) shapeCasts_S2_S1x2

/-! ## The two arrays at an index -/

/-- The row difference at column k. -/
theorem rowDiff_apply (W : FVec Ideal S2x128 .f32) (k : Fin 128) :
    rowDiff W (ix1 k) = W (ix2 (1 : Fin 2) k) - W (ix2 (0 : Fin 2) k) := by
  unfold rowDiff
  refine congrArg₂ (· - ·) ?_ ?_
  · refine (shapeCast_apply _ shapeCasts_S1x128_S128 (ix1 k) (ix2 (0 : Fin 1) k) (by
      rw [Shape.rowMajor_val_two, Shape.rowMajor_val_one]
      show 0 * 128 + k.val = k.val
      omega)).trans ?_
    exact extractStridedSlice_apply _ W slices_S2x128_S1x128_1_0 _ (ix2 (1 : Fin 2) k) fun a => match a with
      | ⟨0, _⟩ => by show 1 = 1 + 0; rfl
      | ⟨1, _⟩ => by show k.val = 0 + k.val; omega
  · refine (shapeCast_apply _ shapeCasts_S1x128_S128 (ix1 k) (ix2 (0 : Fin 1) k) (by
      rw [Shape.rowMajor_val_two, Shape.rowMajor_val_one]
      show 0 * 128 + k.val = k.val
      omega)).trans ?_
    exact extractStridedSlice_apply _ W slices_S2x128_S1x128_0_0 _ (ix2 (0 : Fin 2) k) fun a => match a with
      | ⟨0, _⟩ => by show 0 = 0 + 0; rfl
      | ⟨1, _⟩ => by show k.val = 0 + k.val; omega

/-- A vector laid along the columns of a one-row array reads k at (0, k). -/
theorem asRow_apply (v : FVec Ideal S128 .f32) (k : Fin 128) :
    broadcastInDim S1x128 ![1] bcast_S128_S1x128_1 v (ix2 (0 : Fin 1) k) = v (ix1 k) :=
  broadcastInDim_apply _ bcast_S128_S1x128_1 v _ (ix1 k) fun a => match a with
    | ⟨0, _⟩ => by show k.val = if (128 : Nat) = 1 then 0 else k.val; rw [if_neg (by decide)]

/-- Row 0 of the stacked pair is the negated row difference. -/
theorem rowPair_zero (W : FVec Ideal S2x128 .f32) (k : Fin 128) :
    rowPair W (ix2 (0 : Fin 2) k) = -(W (ix2 (1 : Fin 2) k) - W (ix2 (0 : Fin 2) k)) := by
  unfold rowPair
  refine (concatenate_pair_apply_left (t := S2x128) (s₁ := S1x128) (s₂ := S1x128) (0 : Fin 2) _ _ concatenates_S1x128_S1x128_S2x128_d0 (ix2 (0 : Fin 2) k) (by rfl)
    (ix2 (0 : Fin 1) k) fun b => match b with | ⟨0, _⟩ => rfl | ⟨1, _⟩ => rfl).trans ?_
  rw [asRow_apply]
  show -(rowDiff W (ix1 k)) = _
  rw [rowDiff_apply]

/-- Row 1 of the stacked pair is the row difference. -/
theorem rowPair_one (W : FVec Ideal S2x128 .f32) (k : Fin 128) :
    rowPair W (ix2 (1 : Fin 2) k) = W (ix2 (1 : Fin 2) k) - W (ix2 (0 : Fin 2) k) := by
  unfold rowPair
  refine (concatenate_pair_apply_right (t := S2x128) (s₁ := S1x128) (s₂ := S1x128) (0 : Fin 2) _ _ concatenates_S1x128_S1x128_S2x128_d0 (ix2 (1 : Fin 2) k) (by rfl) (by rfl)
    (ix2 (0 : Fin 1) k) (fun b hb => match b, hb with
      | ⟨0, _⟩, hb => absurd rfl hb
      | ⟨1, _⟩, _ => rfl) (by show 0 + 1 = 1; rfl)).trans ?_
  rw [asRow_apply, rowDiff_apply]

/-- The offset difference. -/
theorem offDiff_apply (b : FVec Ideal S2 .f32) :
    offDiff b ix0 = b (ix1 (1 : Fin 2)) - b (ix1 (0 : Fin 2)) := by
  unfold offDiff
  refine congrArg₂ (· - ·) ?_ ?_
  · refine (shapeCast_apply _ shapeCasts_S1_S_ ix0 (ix1 (0 : Fin 1)) (by
      rw [Shape.rowMajor_val_one]
      have h : ((S_ : Shape).rowMajor ix0).val < 1 := ((S_ : Shape).rowMajor ix0).isLt
      show 0 = _
      omega)).trans ?_
    exact extractStridedSlice_apply _ b slices_S2_S1_1 _ (ix1 (1 : Fin 2)) fun a => match a with
      | ⟨0, _⟩ => by show 1 = 1 + 0; rfl
  · refine (shapeCast_apply _ shapeCasts_S1_S_ ix0 (ix1 (0 : Fin 1)) (by
      rw [Shape.rowMajor_val_one]
      have h : ((S_ : Shape).rowMajor ix0).val < 1 := ((S_ : Shape).rowMajor ix0).isLt
      show 0 = _
      omega)).trans ?_
    exact extractStridedSlice_apply _ b slices_S2_S1_0 _ (ix1 (0 : Fin 2)) fun a => match a with
      | ⟨0, _⟩ => by show 0 = 0 + 0; rfl

/-- A scalar spread to a one-entry vector reads the scalar. -/
theorem asOne_apply (v : FVec Ideal S_ .f32) (u : Fin 1) :
    broadcastInDim S1 ![] bcast_S_S1 v (ix1 u) = v ix0 :=
  broadcastInDim_apply _ bcast_S_S1 v _ ix0 fun a => a.elim0

/-- Entry (0, 0) of the offset pair is the negated offset difference. -/
theorem offPair_zero (b : FVec Ideal S2 .f32) :
    offPair b (ix2 (0 : Fin 1) (0 : Fin 2)) = -(b (ix1 (1 : Fin 2)) - b (ix1 (0 : Fin 2))) := by
  unfold offPair
  refine (shapeCast_apply _ shapeCasts_S2_S1x2 (ix2 (0 : Fin 1) (0 : Fin 2)) (ix1 (0 : Fin 2)) (by
    rw [Shape.rowMajor_val_two, Shape.rowMajor_val_one]; rfl)).trans ?_
  refine (concatenate_pair_apply_left (t := S2) (s₁ := S1) (s₂ := S1) (0 : Fin 1) _ _ concatenates_S1_S1_S2_d0 (ix1 (0 : Fin 2)) (by rfl)
    (ix1 (0 : Fin 1)) fun b => match b with | ⟨0, _⟩ => rfl).trans ?_
  rw [asOne_apply]
  show -(offDiff b ix0) = _
  rw [offDiff_apply]

/-- Entry (0, 1) of the offset pair is the offset difference. -/
theorem offPair_one (b : FVec Ideal S2 .f32) :
    offPair b (ix2 (0 : Fin 1) (1 : Fin 2)) = b (ix1 (1 : Fin 2)) - b (ix1 (0 : Fin 2)) := by
  unfold offPair
  refine (shapeCast_apply _ shapeCasts_S2_S1x2 (ix2 (0 : Fin 1) (1 : Fin 2)) (ix1 (1 : Fin 2)) (by
    rw [Shape.rowMajor_val_two, Shape.rowMajor_val_one]; rfl)).trans ?_
  refine (concatenate_pair_apply_right (t := S2) (s₁ := S1) (s₂ := S1) (0 : Fin 1) _ _ concatenates_S1_S1_S2_d0 (ix1 (1 : Fin 2)) (by rfl) (by rfl)
    (ix1 (0 : Fin 1)) (fun b hb => match b, hb with
      | ⟨0, _⟩, hb => absurd rfl hb) (by show 0 + 1 = 1; rfl)).trans ?_
  rw [asOne_apply, offDiff_apply]

variable (m : (ℓ : Loc nD τ sig) → Buf (Elt Ideal) ℓ)

/-- The call's second operand is the stacked pair of the launched weights. -/
theorem V_rowPair (c : Dev nD) :
    (V m c main_v13 : S2x128.Idx → EReal) = rowPair (m ((c : Thread nD τ).loc main_arg1)) := by
  dsimp only [Gen.V, Gen.hostOps0]
  after_results
  rfl

/-- The call's third operand is the pair of the launched offsets. -/
theorem V_offPair (c : Dev nD) :
    (V m c main_v18 : S1x2.Idx → EReal) = offPair (m ((c : Thread nD τ).loc main_arg2)) := by
  dsimp only [Gen.V, Gen.hostOps0]
  after_results
  rfl

end Cert.KernelIdeal.Weights

end
-- ==== Proof.LibFinite.lean ====
/-
  "Every entry is finite", read back from the printed test, for an array of any shape.

  The precondition tests an array by `all (|x| < +inf)`: the absolute value entry by entry, compared with the
  pattern of plus infinity, and the one-bit answers folded by `and` into a single bit. If that bit is one, every
  entry's comparison came out one, so `max x (-x)` is below the top element: `x` is neither infinity, that is, `x`
  is a coerced real.
-/
import Idealize.ShloMosaic.PureOps.Ideal
import Idealize.ShloMosaic.Lib.ValueIdx
import Idealize.ShloMosaic.Lib.ReduceAll

noncomputable section

namespace Cert.LibFinite

open Idealize.ShloMosaic Idealize.ShloMosaic.ValueIdx

/-- The pattern `0x7F800000` denotes the top element. -/
theorem ofBits_inf : Ideal.ofBits .f32 0x7F800000#32 = (⊤ : EReal) := by
  simp [Ideal.ofBits, Ideal.ieee]

/-- An extended real whose absolute value compares below plus infinity is a coerced real. -/
theorem real_of_abs_lt_inf (x : EReal) (h : Ideal.cmp .olt (max x (-x)) (Ideal.ofBits .f32 0x7F800000#32) = 1#1) :
    ∃ r : ℝ, x = (r : EReal) := by
  rw [ofBits_inf] at h
  have hlt : max x (-x) < ⊤ := by
    by_contra hn
    simp [Ideal.cmp, hn] at h
  induction x using EReal.rec with
  | bot => simp at hlt
  | coe r => exact ⟨r, rfl⟩
  | top => simp at hlt

/-- The scalar shape has one index. -/
instance : Subsingleton (⟨0, ![]⟩ : Shape).Idx := ⟨fun a b => funext fun d => d.elim0⟩

/-- If the test `all (|x| < +inf)` of an array answers one, every entry of the array is a coerced real. -/
theorem real_of_all {s : Shape} {axes : List (Fin s.rank)} (x : FVec Ideal s .f32)
    (bc : (⟨0, ![]⟩ : Shape).BroadcastsInDim s (![] : Fin 0 → Fin s.rank)) (h : s.ReducesTo axes ⟨0, ![]⟩)
    (hu : 0 < (⟨0, ![]⟩ : Shape).numel)
    (e : Host.reduce IntOp.andi (cmpf .olt (Host.absf x) (broadcastInDim s ![] bc (constant ⟨0, ![]⟩ .f32 0x7F800000#32)))
      (constantI ⟨0, ![]⟩ 1 1#1) h hu ix0 = 1#1) (i : s.Idx) : ∃ r : ℝ, x i = (r : EReal) :=
  real_of_abs_lt_inf (x i) (Host.reduce_andi_all _ _ h hu ix0 e i)

end Cert.LibFinite

end
-- ==== Proof.Finite.lean ====
/-
  The precondition read back: every entry of the three inputs is a real number.

  The precondition is the conjunction of three tests "every entry has absolute value below plus infinity", one per
  input. If it answers one, each of the three tests answered one, and an extended real whose absolute value is below
  plus infinity is a real number.
-/
import proofs.«165602_g39943195853502_cont_8to1_b_465_8_alg».proof.Pre_finite_inputs
import proofs.«165602_g39943195853502_cont_8to1_b_465_8_alg».proof.Proof.LibFinite
import Idealize.ShloMosaic.Lib.Affine
import Idealize.ShloMosaic.Lib.ValueIdx

noncomputable section

namespace Cert.FiniteArgs

open Idealize.ShloMosaic Idealize.ShloMosaic.ValueIdx Cert.Pre_finite_inputs

variable [Cert.Pre_finite_inputs.Facts]
open Cert.Pre_finite_inputs.Facts

/-- If the precondition holds of the three arrays, each of their entries is a coerced real. -/
theorem real_of_pre (X : FVec Ideal S128x2048x128 .f32) (W : FVec Ideal S2x128 .f32) (B : FVec Ideal S2 .f32)
    (h : Cert.Pre_finite_inputs.fn (F := Ideal) X W B = fun _ => 1#1) :
    (∀ i, ∃ r : ℝ, X i = (r : EReal)) ∧ (∀ i, ∃ r : ℝ, W i = (r : EReal)) ∧ (∀ i, ∃ r : ℝ, B i = (r : EReal)) := by
  have h0 := congrFun h ix0
  dsimp only [Cert.Pre_finite_inputs.fn] at h0
  obtain ⟨h8, h12⟩ := IntOp.andi_eq_one.mp h0
  obtain ⟨h3, h7⟩ := IntOp.andi_eq_one.mp h8
  exact ⟨Cert.LibFinite.real_of_all X bcast_S_S128x2048x128 reducesTo_S128x2048x128_S_d0_1_2 h_S_ h3,
    Cert.LibFinite.real_of_all W bcast_S_S2x128 reducesTo_S2x128_S_d0_1 h_S_ h7,
    Cert.LibFinite.real_of_all B bcast_S_S2 reducesTo_S2_S_d0 h_S_ h12⟩

end Cert.FiniteArgs

end
-- ==== Proof.LibIdealReal.lean ====
/-
  The float operations at the ideal values — a float is an extended real — on arguments that are coerced reals:
  each gives the coerced real operation. The arithmetic of coerced reals, the absolute value, minimum and
  maximum; the exponential and the logarithm; the quotient by a nonzero real; the extended reals that six
  32-bit patterns denote; the conversions of a one-bit word and of a signed word; the comparison of two
  coerced reals; a finite sum of coerced reals; and the maximum of finitely many coerced reals, folded from
  the bottom element.
-/
import Idealize.ShloMosaic.PureOps.Ideal
import Idealize.ShloMosaic.PureOps.Ideal.Laws
import Mathlib.Data.EReal.Basic
import Mathlib.Data.EReal.Operations
import Mathlib.Data.EReal.Inv
import Mathlib.Analysis.SpecialFunctions.Log.Basic
import Mathlib.Algebra.BigOperators.Group.Finset.Basic
import Mathlib.Data.Finset.Lattice.Fold

noncomputable section

namespace Cert.LibIdealReal

open Idealize.ShloMosaic
open scoped BigOperators

variable {φ : FTy}

/-! ## Arithmetic of coerced reals -/

/-- The product of two coerced reals is the coerced product. -/
theorem mul_coe (a b : ℝ) : (a : EReal) * (b : EReal) = ((a * b : ℝ) : EReal) := (EReal.coe_mul a b).symm

/-- The sum of two coerced reals is the coerced sum. -/
theorem add_coe (a b : ℝ) : (a : EReal) + (b : EReal) = ((a + b : ℝ) : EReal) := (EReal.coe_add a b).symm

/-- The difference of two coerced reals is the coerced difference. -/
theorem sub_coe (a b : ℝ) : (a : EReal) - (b : EReal) = ((a - b : ℝ) : EReal) := (EReal.coe_sub a b).symm

/-- The negation of a coerced real is the coerced negation. -/
theorem neg_coe (a : ℝ) : -(a : EReal) = ((-a : ℝ) : EReal) := (EReal.coe_neg a).symm

/-- The maximum of two coerced reals is the coerced maximum. -/
theorem max_coe (a b : ℝ) : max (a : EReal) (b : EReal) = ((max a b : ℝ) : EReal) :=
  (EReal.coe_strictMono.monotone.map_max (a := a) (b := b)).symm

/-- The minimum of two coerced reals is the coerced minimum. -/
theorem min_coe (a b : ℝ) : min (a : EReal) (b : EReal) = ((min a b : ℝ) : EReal) :=
  (EReal.coe_strictMono.monotone.map_min (a := a) (b := b)).symm

/-- The larger of a coerced real and its negation is the coerced absolute value. -/
theorem abs_coe (a : ℝ) : max (a : EReal) (-(a : EReal)) = ((|a| : ℝ) : EReal) := by
  rw [neg_coe, max_coe, abs_eq_max_neg]

/-- The coerced real zero is the extended real zero. -/
theorem zero_coe : (0 : EReal) = ((0 : ℝ) : EReal) := EReal.coe_zero.symm

/-- The coerced real one is the extended real one. -/
theorem one_coe : (1 : EReal) = ((1 : ℝ) : EReal) := EReal.coe_one.symm

/-! ## Exponential, logarithm, quotient -/

/-- The exponential of a coerced real is the coerced real exponential. -/
theorem exp_coe (a : ℝ) : Ideal.exp (a : EReal) = ((Real.exp a : ℝ) : EReal) := rfl

/-- The logarithm of a coerced positive real is the coerced real logarithm. -/
theorem log_coe {a : ℝ} (h : 0 < a) : Ideal.log (a : EReal) = ((Real.log a : ℝ) : EReal) := by
  rw [Ideal.log_coe, if_neg (not_le.mpr h)]

/-- The logarithm of a coerced real that is not positive is the bottom element. -/
theorem log_coe_nonpos {a : ℝ} (h : a ≤ 0) : Ideal.log (a : EReal) = ⊥ := by
  rw [Ideal.log_coe, if_pos h]

/-- The quotient of a coerced real by a coerced nonzero real is the coerced quotient. -/
theorem div_coe (a : ℝ) {b : ℝ} (h : b ≠ 0) : Ideal.div (a : EReal) (b : EReal) = ((a / b : ℝ) : EReal) := by
  rw [Ideal.div_coe h, mul_coe, mul_one_div]

/-! ## Six patterns -/

/-- The all-zero pattern denotes zero. -/
theorem ofBits_zero : Ideal.ofBits .f32 0x00000000#32 = 0 := Ideal.ofBits_zero_f32

/-- The all-zero pattern denotes the coerced real zero. -/
theorem ofBits_zero_coe : Ideal.ofBits .f32 0x00000000#32 = ((0 : ℝ) : EReal) := by
  rw [ofBits_zero, zero_coe]

/-- The pattern of one denotes the coerced real one. -/
theorem ofBits_one_coe : Ideal.ofBits .f32 0x3F800000#32 = ((1 : ℝ) : EReal) := by
  simp [Ideal.ofBits, Ideal.ieee, -EReal.coe_mul]; norm_num

/-- The pattern of one denotes one. -/
theorem ofBits_one : Ideal.ofBits .f32 0x3F800000#32 = 1 := by
  rw [ofBits_one_coe, one_coe]

/-- The pattern of one half denotes the coerced real one half. -/
theorem ofBits_half : Ideal.ofBits .f32 0x3F000000#32 = ((1 / 2 : ℝ) : EReal) := by
  simp [Ideal.ofBits, Ideal.ieee, -EReal.coe_mul]; norm_num

/-- The pattern of 4096 denotes the coerced real 4096. -/
theorem ofBits_4096 : Ideal.ofBits .f32 0x45800000#32 = ((4096 : ℝ) : EReal) := by
  simp [Ideal.ofBits, Ideal.ieee, -EReal.coe_mul]; norm_num

/-- The pattern of 32 denotes the coerced real 32. -/
theorem ofBits_32 : Ideal.ofBits .f32 0x42000000#32 = ((32 : ℝ) : EReal) := by
  simp [Ideal.ofBits, Ideal.ieee, -EReal.coe_mul]; norm_num

/-- The pattern of minus infinity denotes the bottom element. -/
theorem ofBits_neg_inf : Ideal.ofBits .f32 0xFF800000#32 = ⊥ := by
  simp [Ideal.ofBits, Ideal.ieee]

/-! ## Conversions of words -/

/-- A one-bit word is zero or one. -/
theorem bit_cases (b : BitVec 1) : b = 0#1 ∨ b = 1#1 := by
  have h := b.isLt
  rcases (by omega : b.toNat = 0 ∨ b.toNat = 1) with h0 | h1
  · left; exact BitVec.eq_of_toNat_eq (by simpa using h0)
  · right; exact BitVec.eq_of_toNat_eq (by simpa using h1)

/-- The signed conversion of a word is the coerced real of its signed value. -/
theorem sitofp_def {w : Nat} (b : BitVec w) : FloatOps.sitofp (F := Ideal) φ b = (((b.toInt : ℤ) : ℝ) : EReal) := rfl

/-- The unsigned conversion of a word is the coerced real of its unsigned value. -/
theorem uitofp_def {w : Nat} (b : BitVec w) : FloatOps.uitofp (F := Ideal) φ b = (((b.toNat : ℕ) : ℝ) : EReal) := rfl

/-- The signed conversion of a word whose signed value is `n` is the coerced real `n`. -/
theorem sitofp_of_toInt {w : Nat} (b : BitVec w) (n : ℤ) (h : b.toInt = n) :
    FloatOps.sitofp (F := Ideal) φ b = ((n : ℝ) : EReal) := by
  rw [sitofp_def, h]

/-- The unsigned conversion of the one-bit word one is the coerced real one. -/
theorem uitofp_bit_one : FloatOps.uitofp (F := Ideal) φ (1#1) = ((1 : ℝ) : EReal) := by
  rw [uitofp_def]; norm_num

/-- The unsigned conversion of the one-bit word zero is the coerced real zero. -/
theorem uitofp_bit_zero : FloatOps.uitofp (F := Ideal) φ (0#1) = ((0 : ℝ) : EReal) := by
  rw [uitofp_def]; norm_num

/-- The unsigned conversion of a one-bit word is one or zero as the word is one or not. -/
theorem uitofp_bit (b : BitVec 1) :
    FloatOps.uitofp (F := Ideal) φ b = ((if b = 1#1 then (1 : ℝ) else 0 : ℝ) : EReal) := by
  rcases bit_cases b with rfl | rfl
  · rw [uitofp_bit_zero, if_neg (by decide)]
  · rw [uitofp_bit_one, if_pos rfl]

/-- The signed conversion of the one-bit word one, zero-extended to 32 bits, is the coerced real one. -/
theorem sitofp_extui_bit_one : FloatOps.sitofp (F := Ideal) φ ((1#1 : BitVec 1).setWidth 32) = ((1 : ℝ) : EReal) := by
  rw [sitofp_of_toInt _ 1 (by decide)]; norm_num

/-- The signed conversion of the one-bit word zero, zero-extended to 32 bits, is the coerced real zero. -/
theorem sitofp_extui_bit_zero : FloatOps.sitofp (F := Ideal) φ ((0#1 : BitVec 1).setWidth 32) = ((0 : ℝ) : EReal) := by
  rw [sitofp_of_toInt _ 0 (by decide)]; norm_num

/-- The signed conversion of a zero-extended one-bit word is one or zero as the word is one or not. -/
theorem sitofp_extui_bit (b : BitVec 1) :
    FloatOps.sitofp (F := Ideal) φ (b.setWidth 32) = ((if b = 1#1 then (1 : ℝ) else 0 : ℝ) : EReal) := by
  rcases bit_cases b with rfl | rfl
  · rw [sitofp_extui_bit_zero, if_neg (by decide)]
  · rw [sitofp_extui_bit_one, if_pos rfl]

/-! ## Comparison -/

/-- The strict comparison of two coerced reals is the one-bit word one exactly when the first is below the second. -/
theorem cmp_olt_coe (a b : ℝ) : Ideal.cmp .olt (a : EReal) (b : EReal) = if a < b then 1#1 else 0#1 := by
  by_cases h : a < b
  · simp [Ideal.cmp, h]
  · simp [Ideal.cmp, h]

/-- A choice by the strict comparison of two coerced reals is the choice by the comparison of the reals. -/
theorem select_cmp_olt_coe {α : Type} (a b : ℝ) (x y : α) :
    Scalar.select (Ideal.cmp .olt (a : EReal) (b : EReal)) x y = if a < b then x else y := by
  rw [cmp_olt_coe]
  by_cases h : a < b
  · rw [if_pos h, if_pos h]; exact if_pos rfl
  · rw [if_neg h, if_neg h]; exact if_neg (by decide)

/-! ## Finite sums -/

/-- A finite sum of coerced reals is the coerced sum. -/
theorem sum_coe {ι : Type*} (s : Finset ι) (f : ι → ℝ) :
    ∑ i ∈ s, ((f i : ℝ) : EReal) = ((∑ i ∈ s, f i : ℝ) : EReal) := by
  classical
  refine Finset.induction_on s (by simp) ?_
  intro i s hi ih
  rw [Finset.sum_insert hi, Finset.sum_insert hi, ih, EReal.coe_add]

/-- A sum over a finite type of coerced reals is the coerced sum. -/
theorem sum_univ_coe {ι : Type*} [Fintype ι] (f : ι → ℝ) :
    ∑ i, ((f i : ℝ) : EReal) = ((∑ i, f i : ℝ) : EReal) := sum_coe Finset.univ f

/-- A finite sum of extended reals, each a coerced real, is the coerced sum of the reals. -/
theorem sum_of_eq {ι : Type*} (s : Finset ι) (g : ι → EReal) (f : ι → ℝ) (hg : ∀ i ∈ s, g i = ((f i : ℝ) : EReal)) :
    ∑ i ∈ s, g i = ((∑ i ∈ s, f i : ℝ) : EReal) := by
  rw [Finset.sum_congr rfl hg, sum_coe]

/-! ## Finite maxima from the bottom element -/

/-- The maximum of finitely many coerced reals over a nonempty set, folded from the bottom element, is the
coerced maximum of the reals. -/
theorem fold_max_bot_coe {ι : Type*} (s : Finset ι) (H : s.Nonempty) (f : ι → ℝ) :
    s.fold max (⊥ : EReal) (fun i => ((f i : ℝ) : EReal)) = ((s.sup' H f : ℝ) : EReal) := by
  have h1 : s.fold max (⊥ : EReal) (fun i => ((f i : ℝ) : EReal)) = s.sup (fun i => ((f i : ℝ) : EReal)) := rfl
  rw [h1, ← Finset.sup'_eq_sup H]
  exact (Finset.comp_sup'_eq_sup'_comp H (fun r : ℝ => (r : EReal)) (fun x y => (max_coe x y).symm)).symm

/-- The same for extended reals each known to be a coerced real. -/
theorem fold_max_bot_of_eq {ι : Type*} (s : Finset ι) (H : s.Nonempty) (g : ι → EReal) (f : ι → ℝ)
    (hg : ∀ i, g i = ((f i : ℝ) : EReal)) :
    s.fold max (⊥ : EReal) g = ((s.sup' H f : ℝ) : EReal) := by
  have : g = fun i => ((f i : ℝ) : EReal) := funext hg
  rw [this, fold_max_bot_coe]

/-- The same with the float maximum as the folded operation. -/
theorem fold_maximumf_bot_of_eq {ι : Type*} (s : Finset ι) (H : s.Nonempty) (g : ι → EReal) (f : ι → ℝ)
    (hg : ∀ i, g i = ((f i : ℝ) : EReal)) :
    s.fold (FloatOps.maximumf (F := Ideal) (φ := φ)) (⊥ : EReal) g = ((s.sup' H f : ℝ) : EReal) :=
  fold_max_bot_of_eq s H g f hg

end Cert.LibIdealReal

end
-- ==== Proof.RefAt.lean ====
/-
  The reference's result at an index, for inputs whose entries are real numbers.

  The reference forms the logits l (p, n, o) = sum over k of x (p, n, k) * w (o, k) + β o, subtracts from each the
  maximum M (p, n) of the two logits of its row (the maximum folded from minus infinity, then taken once more
  against minus infinity), exponentiates, sums the two exponentials of the row from zero, and divides. With real
  inputs every stage is a real number: the logits are finite sums of products, the maximum of two reals from minus
  infinity is a real, and the sum of two exponentials is positive, so the quotient is the real quotient.
-/
import proofs.«165602_g39943195853502_cont_8to1_b_465_8_alg».proof.Proof.Gen.ReferenceIdeal.Read
import proofs.«165602_g39943195853502_cont_8to1_b_465_8_alg».proof.Proof.LibIdealReal
import Idealize.ShloMosaic.Lib.ValueIdx
import Idealize.ShloMosaic.PureOps.Reduce
import Mathlib.Analysis.SpecialFunctions.Exp

noncomputable section

namespace Cert.ReferenceIdeal.RefAt

open Cert.ReferenceIdeal Cert.ReferenceIdeal.Gen Cert.ReferenceIdeal.Read Idealize.ShloMosaic Idealize.ShloMosaic.ValueIdx
open Cert.LibIdealReal
open scoped BigOperators

variable (X : FVec Ideal S128x2048x128 .f32) (W : FVec Ideal S2x128 .f32) (B : FVec Ideal S2 .f32)
variable (x : S128x2048x128.Idx → ℝ) (w : S2x128.Idx → ℝ) (β : S2.Idx → ℝ)

/-- The logit of class `o` at row `(p, n)`. -/
def logit (p : Fin 128) (n : Fin 2048) (o : Fin 2) : ℝ :=
  (∑ k : Fin 128, x (ix3 p n k) * w (ix2 o k)) + β (ix1 o)

/-- The logit at an index of the result, by the index's coordinates. -/
def logitAt (i : S128x2048x2.Idx) : ℝ :=
  logit x w β ⟨(i 0).val, (i 0).isLt⟩ ⟨(i 1).val, (i 1).isLt⟩ ⟨(i 2).val, (i 2).isLt⟩

/-- The row of an index of the result. -/
abbrev rowOf (i : S128x2048x2.Idx) : S128x2048.Idx := idx_main_v7 (idx_main_v8 i)

section
variable (hX : ∀ i, X i = ((x i : ℝ) : EReal)) (hW : ∀ i, W i = ((w i : ℝ) : EReal)) (hB : ∀ i, B i = ((β i : ℝ) : EReal))
include hX hW hB

/-- The logits are real. -/
theorem logits_real (i : S128x2048x2.Idx) : val_main_v3 (F := Ideal) X W B i = ((logitAt x w β i : ℝ) : EReal) := by
  rw [val_main_v3_apply, val_main_v0_apply, val_main_v2_apply, val_main_v1_apply]
  have el : ∀ k : Fin 128, lidx_main_v0 i k
      = ix3 (⟨(i 0).val, (i 0).isLt⟩ : Fin 128) (⟨(i 1).val, (i 1).isLt⟩ : Fin 2048) k := fun k => funext fun a => Fin.ext (by
    match a with | ⟨0, _⟩ => rfl | ⟨1, _⟩ => rfl | ⟨2, _⟩ => rfl)
  have er : ∀ k : Fin 128, ridx_main_v0 i k = ix2 (⟨(i 2).val, (i 2).isLt⟩ : Fin 2) k := fun k => funext fun a => Fin.ext (by
    match a with | ⟨0, _⟩ => rfl | ⟨1, _⟩ => rfl)
  have eb : idx_main_v1 (idx_main_v2 i) = ix1 (⟨(i 2).val, (i 2).isLt⟩ : Fin 2) := funext fun a => Fin.ext (by
    match a with | ⟨0, _⟩ => rfl)
  simp only [el, er, eb, hX, hW, hB, Ideal.addf_def, mul_coe]
  rw [sum_univ_coe, add_coe]
  rfl

/-- The row maximum is real. -/
theorem rowMax_real : ∃ M : S128x2048.Idx → ℝ, ∀ j, val_main_v6 (F := Ideal) X W B j = ((M j : ℝ) : EReal) := by
  have hr : S128x2048x2.Reduces [2] S128x2048 := by decide
  have hne : (Finset.univ : Finset (Fin (S128x2048x2.size 2))).Nonempty := ⟨⟨0, by decide⟩, Finset.mem_univ _⟩
  refine ⟨fun j => Finset.univ.sup' hne ((logitAt x w β) ∘ hr.lift j), fun j => ?_⟩
  rw [val_main_v6_apply, val_main_v5_apply, val_main_cst_0_apply]
  unfold val_main_v4
  rw [Host.reduce_eq_fold_single FloatOps.maximumf _ _ reducesTo_S128x2048x2_S128x2048_d2 hr h_S_ j, val_main_cst_apply]
  simp only [Ideal.ofBits_def, ofBits_neg_inf, Ideal.maximumf_def]
  have hf := fold_maximumf_bot_of_eq (φ := .f32) Finset.univ hne (val_main_v3 (F := Ideal) X W B ∘ hr.lift j)
    ((logitAt x w β) ∘ hr.lift j) (fun k => logits_real X W B x w β hX hW hB (hr.lift j k))
  rw [max_eq_right bot_le]
  exact hf

variable (M : S128x2048.Idx → ℝ) (hM : ∀ j, val_main_v6 (F := Ideal) X W B j = ((M j : ℝ) : EReal))
include hM

/-- The shifted exponentials are real. -/
theorem exps_real (i : S128x2048x2.Idx) :
    val_main_v10 (F := Ideal) X W B i = ((Real.exp (logitAt x w β i - M (rowOf i)) : ℝ) : EReal) := by
  rw [val_main_v10_apply, val_main_v9_apply, val_main_v8_apply, val_main_v7_apply, hM, logits_real X W B x w β hX hW hB i]
  simp only [Ideal.hostUnary_exp_def, Ideal.subf_def, sub_coe, exp_coe]

/-- The reference's result at (p, n, o) is the real softmax quotient. -/
theorem result_real (p : Fin 128) (n : Fin 2048) (o : Fin 2) :
    val_main_v14 (F := Ideal) X W B (ix3 p n o)
      = ((Real.exp (logit x w β p n o - M (ix2 p n))
          / (0 + (Real.exp (logit x w β p n 0 - M (ix2 p n)) + Real.exp (logit x w β p n 1 - M (ix2 p n)))) : ℝ) : EReal) := by
  rw [val_main_v14_apply, val_main_v13_apply, val_main_v12_apply, val_main_v11_apply, Fin.sum_univ_two, val_main_cst_1_apply]
  rw [exps_real X W B x w β hX hW hB M hM (ix3 p n o),
    exps_real X W B x w β hX hW hB M hM (idx_main_v11 (idx_main_v12 (idx_main_v13 (ix3 p n o))) 0),
    exps_real X W B x w β hX hW hB M hM (idx_main_v11 (idx_main_v12 (idx_main_v13 (ix3 p n o))) 1)]
  have r : rowOf (ix3 p n o) = ix2 p n := funext fun a => Fin.ext (by
    match a with | ⟨0, _⟩ => rfl | ⟨1, _⟩ => rfl)
  have l : logitAt x w β (ix3 p n o) = logit x w β p n o := rfl
  have l0 : logitAt x w β (idx_main_v11 (idx_main_v12 (idx_main_v13 (ix3 p n o))) 0) = logit x w β p n 0 := rfl
  have l1 : logitAt x w β (idx_main_v11 (idx_main_v12 (idx_main_v13 (ix3 p n o))) 1) = logit x w β p n 1 := rfl
  rw [r, l, l0, l1]
  simp only [Ideal.hostDivf_def, Ideal.ofBits_def, ofBits_zero_coe, add_coe]
  have hpos : (0 : ℝ) < 0 + (Real.exp (logit x w β p n 0 - M (ix2 p n)) + Real.exp (logit x w β p n 1 - M (ix2 p n))) := by
    have h0 := Real.exp_pos (logit x w β p n 0 - M (ix2 p n))
    have h1 := Real.exp_pos (logit x w β p n 1 - M (ix2 p n))
    linarith
  exact div_coe _ (ne_of_gt hpos)

end

end Cert.ReferenceIdeal.RefAt

end
-- ==== Proof.Softmax2.lean ====
/-
  Two-class softmax as a sigmoid of the logit difference, over the real numbers.

  For two logits the softmax of one of them is exp (a - M) / (exp (l0 - M) + exp (l1 - M)) for any shift M; with
  a the logit in question and a' the other, this is 1 / (1 + exp (a' - a)): divide numerator and denominator by
  exp (a - M). The difference of two affine logits of one row x is the affine logit of the difference of the
  weights and of the offsets, by distributing the products over the differences and the sum over k.
-/
import Mathlib.Analysis.SpecialFunctions.Exp
import Mathlib.Algebra.BigOperators.Group.Finset.Basic
import Mathlib.Algebra.BigOperators.Ring.Finset
import Mathlib.Tactic.Ring
import Mathlib.Tactic.FieldSimp

namespace Cert.Softmax2

open scoped BigOperators

/-- The softmax entry of the logit `a` against the other logit `a'`, both shifted by `M`, the entry's own
    exponential first in the denominator. -/
theorem softmax_fst (a a' M : ℝ) :
    Real.exp (a - M) / (0 + (Real.exp (a - M) + Real.exp (a' - M))) = 1 / (1 + Real.exp (0 - (a - a'))) := by
  have h : Real.exp (a' - M) = Real.exp (a - M) * Real.exp (0 - (a - a')) := by
    rw [← Real.exp_add]; congr 1; ring
  have hp : 0 < Real.exp (a - M) := Real.exp_pos _
  have hq : 0 < Real.exp (0 - (a - a')) := Real.exp_pos _
  rw [h, zero_add]
  field_simp

/-- The same with the entry's own exponential second in the denominator. -/
theorem softmax_snd (a a' M : ℝ) :
    Real.exp (a - M) / (0 + (Real.exp (a' - M) + Real.exp (a - M))) = 1 / (1 + Real.exp (0 - (a - a'))) := by
  rw [add_comm (Real.exp (a' - M))]
  exact softmax_fst a a' M

/-- The logit of the weight difference: the row against `w1 - w0` plus `b1 - b0` is the difference of the two logits. -/
theorem logit_diff {ι : Type*} (s : Finset ι) (x w0 w1 : ι → ℝ) (b0 b1 : ℝ) :
    (∑ k ∈ s, x k * (w1 k - w0 k)) + (b1 - b0) = ((∑ k ∈ s, x k * w1 k) + b1) - ((∑ k ∈ s, x k * w0 k) + b0) := by
  simp only [mul_sub, Finset.sum_sub_distrib]
  ring

/-- The logit of the negated weight difference is the opposite difference of the two logits. -/
theorem logit_neg_diff {ι : Type*} (s : Finset ι) (x w0 w1 : ι → ℝ) (b0 b1 : ℝ) :
    (∑ k ∈ s, x k * (-(w1 k - w0 k))) + (-(b1 - b0)) = ((∑ k ∈ s, x k * w0 k) + b0) - ((∑ k ∈ s, x k * w1 k) + b1) := by
  simp only [mul_neg, mul_sub, Finset.sum_neg_distrib, Finset.sum_sub_distrib]
  ring

end Cert.Softmax2
-- ==== Proof.Bridge.lean ====
/-
  The kernel's array and the reference's array are the same function of real inputs.

  With d = W[1, :] - W[0, :] and c = b[1] - b[0] the kernel's entry of class 0 at a row x is
  1 / (1 + exp (0 - (x . (-d) + (-c)))) and its entry of class 1 is 1 / (1 + exp (0 - (x . d + c))). Over the reals
  x . (-d) + (-c) is l0 - l1 and x . d + c is l1 - l0 for the two logits l0, l1 of the row, and the two-class softmax of
  the logits, shifted by any real M, is 1 / (1 + exp (0 - (l_o - l_other))): the reference's entry.
-/
import proofs.«165602_g39943195853502_cont_8to1_b_465_8_alg».proof.Proof.Whole
import proofs.«165602_g39943195853502_cont_8to1_b_465_8_alg».proof.Proof.Weights
import proofs.«165602_g39943195853502_cont_8to1_b_465_8_alg».proof.Proof.RefAt
import proofs.«165602_g39943195853502_cont_8to1_b_465_8_alg».proof.Proof.Softmax2
import proofs.«165602_g39943195853502_cont_8to1_b_465_8_alg».proof.Proof.LibIdealReal

noncomputable section

namespace Cert.Bridge

open Idealize.ShloMosaic Idealize.ShloMosaic.ValueIdx
open Cert.LibIdealReal Cert.KernelIdeal.Whole Cert.KernelIdeal.Weights Cert.KernelIdeal.BodyAt
open scoped BigOperators

abbrev SX : Shape := ⟨3, ![128, 2048, 128]⟩
abbrev SW : Shape := ⟨2, ![2, 128]⟩
abbrev SB : Shape := ⟨1, ![2]⟩
abbrev SO : Shape := ⟨3, ![128, 2048, 2]⟩

/-- The sigmoid of a real logit is the real sigmoid. -/
theorem sig_coe (u : ℝ) : sig ((u : ℝ) : EReal) = ((1 / (1 + Real.exp (0 - u)) : ℝ) : EReal) := by
  unfold sig
  simp only [ofBits_one_coe, ofBits_zero_coe, sub_coe, exp_coe, add_coe]
  have hpos : (0 : ℝ) < 1 + Real.exp (0 - u) := by have := Real.exp_pos (0 - u); linarith
  exact div_coe _ (ne_of_gt hpos)

variable (X : FVec Ideal SX .f32) (W : FVec Ideal SW .f32) (B : FVec Ideal SB .f32)
variable (x : SX.Idx → ℝ) (w : SW.Idx → ℝ) (β : SB.Idx → ℝ)
variable (hX : ∀ i, X i = ((x i : ℝ) : EReal)) (hW : ∀ i, W i = ((w i : ℝ) : EReal)) (hB : ∀ i, B i = ((β i : ℝ) : EReal))
include hX hW hB

/-- The kernel's entry of class 0. -/
theorem kernel_zero (p : Fin 128) (n : Fin 2048) :
    G X (rowPair W) (offPair B) (ix3 p n (0 : Fin 2))
      = ((1 / (1 + Real.exp (0 - ((∑ k : Fin 128, x (ix3 p n k) * (-(w (ix2 (1 : Fin 2) k) - w (ix2 (0 : Fin 2) k))))
          + (-(β (ix1 (1 : Fin 2)) - β (ix1 (0 : Fin 2))))))) : ℝ) : EReal) := by
  show sig ((∑ k : Fin 128, X (ix3 p n k) * rowPair W (ix2 (0 : Fin 2) k)) + offPair B (ix2 (0 : Fin 1) (0 : Fin 2))) = _
  simp only [rowPair_zero, offPair_zero, hX, hW, hB, sub_coe, neg_coe, mul_coe]
  rw [sum_univ_coe, add_coe, sig_coe]

/-- The kernel's entry of class 1. -/
theorem kernel_one (p : Fin 128) (n : Fin 2048) :
    G X (rowPair W) (offPair B) (ix3 p n (1 : Fin 2))
      = ((1 / (1 + Real.exp (0 - ((∑ k : Fin 128, x (ix3 p n k) * (w (ix2 (1 : Fin 2) k) - w (ix2 (0 : Fin 2) k)))
          + (β (ix1 (1 : Fin 2)) - β (ix1 (0 : Fin 2)))))) : ℝ) : EReal) := by
  show sig ((∑ k : Fin 128, X (ix3 p n k) * rowPair W (ix2 (1 : Fin 2) k)) + offPair B (ix2 (0 : Fin 1) (1 : Fin 2))) = _
  simp only [rowPair_one, offPair_one, hX, hW, hB, sub_coe, mul_coe]
  rw [sum_univ_coe, add_coe, sig_coe]

/-- The reference's array is the kernel's, for real inputs. -/
theorem reference_eq_kernel :
    Cert.ReferenceIdeal.Read.val_main_v14 (F := Ideal) X W B = G X (rowPair W) (offPair B) := by
  obtain ⟨M, hM⟩ := Cert.ReferenceIdeal.RefAt.rowMax_real X W B x w β hX hW hB
  funext i
  obtain ⟨p, n, o, rfl⟩ : ∃ (p : Fin 128) (n : Fin 2048) (o : Fin 2), i = ix3 p n o := ⟨i 0, i 1, i 2, eq_ix3 i⟩
  rw [Cert.ReferenceIdeal.RefAt.result_real X W B x w β hX hW hB M hM p n o]
  revert o
  refine Fin.forall_fin_two.mpr ⟨?_, ?_⟩
  · rw [kernel_zero X W B x w β hX hW hB p n]
    refine congrArg (fun r : ℝ => (r : EReal)) ?_
    rw [Cert.Softmax2.logit_neg_diff]
    exact Cert.Softmax2.softmax_fst _ _ _
  · rw [kernel_one X W B x w β hX hW hB p n]
    refine congrArg (fun r : ℝ => (r : EReal)) ?_
    rw [Cert.Softmax2.logit_diff]
    exact Cert.Softmax2.softmax_snd _ _ _

end Cert.Bridge

end
-- ==== Proof.lean ====
/-
  A two-class softmax of an affine map, computed as a sigmoid of the logit difference.

  The inputs are xs of shape [128, 2048, 128], weights W of shape [2, 128] and offsets b of shape [2]. The
  reference forms the two logits l_o = xs . W[o, :] + b[o] of every row and returns their softmax,
  exp (l_o - M) / (exp (l_0 - M) + exp (l_1 - M)) with M the larger logit. The kernel forms d = W[1, :] - W[0, :] and
  c = b[1] - b[0] on the host, and on a grid of 32 points, four leading rows of xs at a time, computes
  u = xs . (-d, d) + (-c, c) and 1 / (1 + exp (0 - u)) entry by entry.

  Over the real numbers the two agree: u_0 = l_0 - l_1 and u_1 = l_1 - l_0 by distributing the products over the
  differences, and dividing numerator and denominator of the softmax by exp (l_o - M) leaves
  1 / (1 + exp (l_other - l_o)). Distributivity needs finite entries, which the precondition gives: every entry of
  the three inputs is a real number, so every intermediate value on both sides is a real number as well.

  The three frames are the generated ones; the reference's frame is its generated run with the result dropped.
  The kernel's array after the run is read block by block off the generated frame run (each of the 32 points writes
  its own four leading rows, and together they cover the output); the reference's array is read one operation at a
  time off its generated run.
-/
import proofs.«165602_g39943195853502_cont_8to1_b_465_8_alg».proof.Defs
import proofs.«165602_g39943195853502_cont_8to1_b_465_8_alg».proof.Proof.Gen.Kernel
import proofs.«165602_g39943195853502_cont_8to1_b_465_8_alg».proof.Proof.Gen.Kernel.Skeleton
import proofs.«165602_g39943195853502_cont_8to1_b_465_8_alg».proof.Proof.Gen.Kernel.Launch
import proofs.«165602_g39943195853502_cont_8to1_b_465_8_alg».proof.Proof.Gen.Kernel.Points
import proofs.«165602_g39943195853502_cont_8to1_b_465_8_alg».proof.Proof.Gen.Kernel.Frame
import proofs.«165602_g39943195853502_cont_8to1_b_465_8_alg».proof.Proof.Gen.KernelIdeal
import proofs.«165602_g39943195853502_cont_8to1_b_465_8_alg».proof.Proof.Gen.KernelIdeal.Skeleton
import proofs.«165602_g39943195853502_cont_8to1_b_465_8_alg».proof.Proof.Gen.KernelIdeal.Launch
import proofs.«165602_g39943195853502_cont_8to1_b_465_8_alg».proof.Proof.Gen.KernelIdeal.Points
import proofs.«165602_g39943195853502_cont_8to1_b_465_8_alg».proof.Proof.Gen.KernelIdeal.Frame
import proofs.«165602_g39943195853502_cont_8to1_b_465_8_alg».proof.Proof.Gen.ReferenceIdeal
import proofs.«165602_g39943195853502_cont_8to1_b_465_8_alg».proof.Proof.Gen.Pre_finite_inputs
import proofs.«165602_g39943195853502_cont_8to1_b_465_8_alg».proof.Proof.Gen.KernelIdeal.Value
import proofs.«165602_g39943195853502_cont_8to1_b_465_8_alg».proof.Proof.Gen.ReferenceIdeal.Run
import proofs.«165602_g39943195853502_cont_8to1_b_465_8_alg».proof.Proof.Gen.ReferenceIdeal.Read
import proofs.«165602_g39943195853502_cont_8to1_b_465_8_alg».proof.Proof.Whole
import proofs.«165602_g39943195853502_cont_8to1_b_465_8_alg».proof.Proof.Weights
import proofs.«165602_g39943195853502_cont_8to1_b_465_8_alg».proof.Proof.Finite
import proofs.«165602_g39943195853502_cont_8to1_b_465_8_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the same array: the kernel's output is the sigmoid form of the launched inputs
    (the blocks of the frame run, the host's weight and offset pairs read back), the reference's is the softmax form,
    and for inputs with real entries the two forms are one function. -/
theorem algebraic : Cert.algebraic_KernelIdeal_ReferenceIdeal := by
  intro m ρ m' ρ' hpre hagree
  refine ⟨fun c => Cert.KernelIdeal.Whole.G
      (m ((c.tc : Thread Cert.KernelIdeal.nD Cert.KernelIdeal.τ).loc Cert.KernelIdeal.main_arg0))
      (Cert.KernelIdeal.Weights.rowPair (m ((c.tc : Thread Cert.KernelIdeal.nD Cert.KernelIdeal.τ).loc Cert.KernelIdeal.main_arg1)))
      (Cert.KernelIdeal.Weights.offPair (m ((c.tc : Thread Cert.KernelIdeal.nD Cert.KernelIdeal.τ).loc Cert.KernelIdeal.main_arg2))), ?_, ?_⟩
  · refine (θ_run Cert.KernelIdeal.defs _ _).mono (fun r h c => ⟨(h c).1.trans ?_, (h c).2⟩)
      (Cert.KernelIdeal.Value.run_blocks (F := Ideal) m ρ)
    rw [Cert.KernelIdeal.Whole.final, Cert.KernelIdeal.Gen.V_main_arg0, Cert.KernelIdeal.Weights.V_rowPair,
      Cert.KernelIdeal.Weights.V_offPair]
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2, Cert.ReferenceIdeal.Read.val_main_v14_eq]
    obtain ⟨hx, hw, hb⟩ := Cert.FiniteArgs.real_of_pre _ _ _ (hpre c)
    choose x hx using hx
    choose w hw using hw
    choose β hb using hb
    exact Cert.Bridge.reference_eq_kernel _ _ _ x w β hx hw hb

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
